-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S100000x64 : Shape := ⟨2, ![100000, 64]⟩
abbrev S3200000x1 : Shape := ⟨2, ![3200000, 1]⟩
abbrev S2x3200000 : Shape := ⟨2, ![2, 3200000]⟩
abbrev S64x1 : Shape := ⟨2, ![64, 1]⟩
abbrev S64x64 : Shape := ⟨2, ![64, 64]⟩
abbrev S64x192 : Shape := ⟨2, ![64, 192]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3200000x1 : S_.BroadcastsInDim S3200000x1 (![] : Fin 0 → Fin S3200000x1.rank)
  reducesTo_S3200000x1_S_d0_1 : S3200000x1.ReducesTo [0, 1] S_
  bcast_S_S64x1 : S_.BroadcastsInDim S64x1 (![] : Fin 0 → Fin S64x1.rank)
  reducesTo_S64x1_S_d0_1 : S64x1.ReducesTo [0, 1] S_
  bcast_S_S64x64 : S_.BroadcastsInDim S64x64 (![] : Fin 0 → Fin S64x64.rank)
  reducesTo_S64x64_S_d0_1 : S64x64.ReducesTo [0, 1] S_
  bcast_S_S64x192 : S_.BroadcastsInDim S64x192 (![] : Fin 0 → Fin S64x192.rank)
  reducesTo_S64x192_S_d0_1 : S64x192.ReducesTo [0, 1] S_

variable [Facts]

def fn_part2 {F : FTy → Type} [FloatOps F] (main_arg8 : FVec F S64x192 .f32) (main_arg9 : FVec F S64x64 .f32) (main_v33 : IVec S_ 1) : IVec S_ 1 :=
  let main_v34 : FVec F S64x192 .f32 := Host.absf main_arg8
  let main_cst_12 : FVec F S_ .f32 := constant S_ .f32 0x7F800000#32
  let main_v35 : FVec F S64x192 .f32 := broadcastInDim S64x192 ![] bcast_S_S64x192 main_cst_12
  let main_v36 : IVec S64x192 1 := cmpf .olt main_v34 main_v35
  let main_c_13 : IVec S_ 1 := constantI S_ 1 1#1
  let main_v37 : IVec S_ 1 := (fun x v => Host.reduce IntOp.andi x v reducesTo_S64x192_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64x1 .f32) (main_arg8 : FVec F S64x192 .f32) (main_arg9 : FVec F S64x64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_arg9 main_v33

def fn {F : FTy → Type} [FloatOps F] (main_arg0 : FVec F S100000x1 .f32) (main_arg1 : FVec F S100000x64 .f32) (main_arg2 : FVec F S3200000x1 .f32) (main_arg3 : IVec S2x3200000 32) (main_arg4 : FVec F S64x1 .f32) (main_arg5 : FVec F S64x64 .f32) (main_arg6 : FVec F S64x64 .f32) (main_arg7 : FVec F S64x1 .f32) (main_arg8 : FVec F S64x192 .f32) (main_arg9 : FVec F S64x64 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3200000x1 .f32 := Host.absf main_arg2
  let main_cst_2 : FVec F S_ .f32 := constant S_ .f32 0x7F800000#32
  let main_v10 : FVec F S3200000x1 .f32 := broadcastInDim S3200000x1 ![] bcast_S_S3200000x1 main_cst_2
  let main_v11 : IVec S3200000x1 1 := cmpf .olt main_v9 main_v10
  let main_c_3 : IVec S_ 1 := constantI S_ 1 1#1
  let main_v12 : IVec S_ 1 := (fun x v => Host.reduce IntOp.andi x v reducesTo_S3200000x1_S_d0_1 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_arg6 main_arg7 main_arg8 main_arg9 main_v13 main_v16
-- ==== Kernel.lean ====
abbrev S100000x1 : Shape := ⟨2, ![100000, 1]⟩
abbrev S100000x64 : Shape := ⟨2, ![100000, 64]⟩
abbrev S3200000x1 : Shape := ⟨2, ![3200000, 1]⟩
abbrev S2x3200000 : Shape := ⟨2, ![2, 3200000]⟩
abbrev S64x1 : Shape := ⟨2, ![64, 1]⟩
abbrev S64x64 : Shape := ⟨2, ![64, 64]⟩
abbrev S64x192 : Shape := ⟨2, ![64, 192]⟩
abbrev S1x3200000 : Shape := ⟨2, ![1, 3200000]⟩
abbrev S3200000 : Shape := ⟨1, ![3200000]⟩
abbrev S1x64 : Shape := ⟨2, ![1, 64]⟩
abbrev S3200000x64 : Shape := ⟨2, ![3200000, 64]⟩
abbrev S8000x1 : Shape := ⟨2, ![8000, 1]⟩
abbrev S8000x64 : Shape := ⟨2, ![8000, 64]⟩
abbrev S_ : Shape := ⟨0, ![]⟩
abbrev S2000x1 : Shape := ⟨2, ![2000, 1]⟩
abbrev S2000x64 : Shape := ⟨2, ![2000, 64]⟩
abbrev S2000x192 : Shape := ⟨2, ![2000, 192]⟩
abbrev S192x64 : Shape := ⟨2, ![192, 64]⟩

abbrev nBuf : Space → Nat
  | .hbm => 35
  | .vmem => 18
  | .smem => 0
  | _ => 0

abbrev bufTy : (tb : Table) → Fin (tcTables nBuf tb) → BufTy
  | .hbm, ⟨0, _⟩ => ⟨S100000x1, .f32⟩
  | .hbm, ⟨1, _⟩ => ⟨S100000x64, .f32⟩
  | .hbm, ⟨2, _⟩ => ⟨S3200000x1, .f32⟩
  | .hbm, ⟨3, _⟩ => ⟨S2x3200000, .i32⟩
  | .hbm, ⟨4, _⟩ => ⟨S64x1, .f32⟩
  | .hbm, ⟨5, _⟩ => ⟨S64x64, .f32⟩
  | .hbm, ⟨6, _⟩ => ⟨S64x64, .f32⟩
  | .hbm, ⟨7, _⟩ => ⟨S64x1, .f32⟩
  | .hbm, ⟨8, _⟩ => ⟨S64x192, .f32⟩
  | .hbm, ⟨9, _⟩ => ⟨S64x64, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S1x64, .f32⟩
  | .hbm, ⟨15, _⟩ => ⟨S3200000x64, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x64, .f32⟩
  | .hbm, ⟨25, _⟩ => ⟨S_, .f32⟩
  | .hbm, ⟨26, _⟩ => ⟨S100000x64, .f32⟩
  | .hbm, ⟨27, _⟩ => ⟨S3200000x1, .i32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S3200000x1, .i32⟩
  | .hbm, ⟨32, _⟩ => ⟨S100000x64, .f32⟩
  | .hbm, ⟨33, _⟩ => ⟨S1x64, .f32⟩
  | .hbm, ⟨34, _⟩ => ⟨S100000x64, .f32⟩
  | .local _ .vmem, ⟨0, _⟩ => ⟨S8000x1, .f32⟩
  | .local _ .vmem, ⟨1, _⟩ => ⟨S8000x1, .f32⟩
  | .local _ .vmem, ⟨2, _⟩ => ⟨S1x64, .f32⟩
  | .local _ .vmem, ⟨3, _⟩ => ⟨S8000x64, .f32⟩
  | .local _ .vmem, ⟨4, _⟩ => ⟨S8000x64, .f32⟩
  | .local _ .vmem, ⟨5, _⟩ => ⟨S2000x1, .f32⟩
  | .local _ .vmem, ⟨6, _⟩ => ⟨S2000x1, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S1x64, .f32⟩
  | .local _ .vmem, ⟨12, _⟩ => ⟨S64x64, .f32⟩
  | .local _ .vmem, ⟨13, _⟩ => ⟨S64x64, .f32⟩
  | .local _ .vmem, ⟨14, _⟩ => ⟨S64x192, .f32⟩
  | .local _ .vmem, ⟨15, _⟩ => ⟨S64x64, .f32⟩
  | .local _ .vmem, ⟨16, _⟩ => ⟨S2000x64, .f32⟩
  | .local _ .vmem, ⟨17, _⟩ => ⟨S2000x64, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S64x1_S1x64_1_0 : S64x1.Transposes [1, 0] S1x64
  inb_S8000x1_S8000x1_0_0 : ∀ a, (![0, 0] : Fin 2 → Nat) a + S8000x1.size a ≤ S8000x1.size a
  h_S8000x1 : 0 < S8000x1.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  inb_S2000x1_S2000x1_0_0 : ∀ a, (![0, 0] : Fin 2 → Nat) a + S2000x1.size a ≤ S2000x1.size a
  h_S2000x1 : 0 < S2000x1.numel
  broadcasts_S2000x1_S2000x64 : S2000x1.Broadcasts S2000x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  concatenates_S2000x64_S2000x64_S2000x64_S2000x192_d1 : Shape.Concatenates [S2000x64, S2000x64, S2000x64] S2000x192 1
  inb_S64x192_S64x192_0_0 : ∀ a, (![0, 0] : Fin 2 → Nat) a + S64x192.size a ≤ S64x192.size a
  h_S64x192 : 0 < S64x192.numel
  transposes_S64x192_p1_0_S192x64 : S64x192.Transposes [1, 0] S192x64
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S2000x192_S192x64_S2000x64_1_0_0_1_n_n_wf : DotDims.WF S2000x192 S192x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S3200000x1.size a
  hwx0_0 : ∀ i : grid0.Coords, EltTy.bits .f32 = 32 ∨ (Rect.block (s := S3200000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S3200000x64.size a
  hwx0_2 : ∀ i : grid0.Coords, EltTy.bits .f32 = 32 ∨ (Rect.block (s := S3200000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S100000x1.size a
  hwx1_0 : ∀ i : grid1.Coords, EltTy.bits .f32 = 32 ∨ (Rect.block (s := S100000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x192.size a ≤ S64x192.size a
  hwx1_6 : ∀ i : grid1.Coords, EltTy.bits .f32 = 32 ∨ (Rect.block (s := S64x192) S64x192.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x192_S192x64_S2000x64_1_0_0_1_n_n : DotDims S2000x192 S192x64 S2000x64 where
  lhsContracting := [1]
  rhsContracting := [0]
  lhsNonContracting := [0]
  rhsNonContracting := [1]
  lhsBatch := []
  rhsBatch := []
  wf := dot_S2000x192_S192x64_S2000x64_1_0_0_1_n_n_wf

abbrev win0_0 : Pipeline.Window sig grid0 :=
  Pipeline.Window.ofSpec (Memref.whole main_arg2) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x192.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x1 : Shape := ⟨2, ![100000, 1]⟩
abbrev S100000x64 : Shape := ⟨2, ![100000, 64]⟩
abbrev S3200000x1 : Shape := ⟨2, ![3200000, 1]⟩
abbrev S2x3200000 : Shape := ⟨2, ![2, 3200000]⟩
abbrev S64x1 : Shape := ⟨2, ![64, 1]⟩
abbrev S64x64 : Shape := ⟨2, ![64, 64]⟩
abbrev S64x192 : Shape := ⟨2, ![64, 192]⟩
abbrev S1x3200000 : Shape := ⟨2, ![1, 3200000]⟩
abbrev S3200000 : Shape := ⟨1, ![3200000]⟩
abbrev S1x64 : Shape := ⟨2, ![1, 64]⟩
abbrev S_ : Shape := ⟨0, ![]⟩
abbrev S3200000x64 : Shape := ⟨2, ![3200000, 64]⟩
abbrev S100000x192 : Shape := ⟨2, ![100000, 192]⟩
abbrev S192x64 : Shape := ⟨2, ![192, 64]⟩

abbrev nBuf : Space → Nat
  | .hbm => 53
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S100000x64, .f32⟩
  | .hbm, ⟨2, _⟩ => ⟨S3200000x1, .f32⟩
  | .hbm, ⟨3, _⟩ => ⟨S2x3200000, .i32⟩
  | .hbm, ⟨4, _⟩ => ⟨S64x1, .f32⟩
  | .hbm, ⟨5, _⟩ => ⟨S64x64, .f32⟩
  | .hbm, ⟨6, _⟩ => ⟨S64x64, .f32⟩
  | .hbm, ⟨7, _⟩ => ⟨S64x1, .f32⟩
  | .hbm, ⟨8, _⟩ => ⟨S64x192, .f32⟩
  | .hbm, ⟨9, _⟩ => ⟨S64x64, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S1x64, .f32⟩
  | .hbm, ⟨15, _⟩ => ⟨S100000x64, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x64, .f32⟩
  | .hbm, ⟨25, _⟩ => ⟨S_, .f32⟩
  | .hbm, ⟨26, _⟩ => ⟨S100000x64, .f32⟩
  | .hbm, ⟨27, _⟩ => ⟨S3200000x1, .i32⟩
  | .hbm, ⟨28, _⟩ => ⟨S100000x64, .f32⟩
  | .hbm, ⟨29, _⟩ => ⟨S64x64, .f32⟩
  | .hbm, ⟨30, _⟩ => ⟨S100000x64, .f32⟩
  | .hbm, ⟨31, _⟩ => ⟨S1x64, .f32⟩
  | .hbm, ⟨32, _⟩ => ⟨S3200000x64, .f32⟩
  | .hbm, ⟨33, _⟩ => ⟨S_, .f32⟩
  | .hbm, ⟨34, _⟩ => ⟨S3200000x64, .f32⟩
  | .hbm, ⟨35, _⟩ => ⟨S3200000x64, .f32⟩
  | .hbm, ⟨36, _⟩ => ⟨S_, .f32⟩
  | .hbm, ⟨37, _⟩ => ⟨S100000x64, .f32⟩
  | .hbm, ⟨38, _⟩ => ⟨S3200000x1, .i32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S100000x192, .f32⟩
  | .hbm, ⟨43, _⟩ => ⟨S192x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S64x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call2_cst : Ref sig .tc := ⟨.hbm, 50, rfl⟩
abbrev main_call2_v0 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S64x1_S1x64_1_0 : S64x1.Transposes [1, 0] S1x64
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  transposes_S64x64_S64x64_1_0 : S64x64.Transposes [1, 0] S64x64
  bcast_S_S3200000x64 : S_.BroadcastsInDim S3200000x64 (![] : Fin 0 → Fin S3200000x64.rank)
  concatenates_S100000x64_S100000x64_S100000x64_S100000x192_d1 : Shape.Concatenates [S100000x64, S100000x64, S100000x64] S100000x192 1
  transposes_S64x192_S192x64_1_0 : S64x192.Transposes [1, 0] S192x64
  dot_S100000x1_S1x64_S100000x64_1_0_0_1_n_n_wf : DotDims.WF S100000x1 S1x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S3200000x1_S1x64_S3200000x64_1_0_0_1_n_n_wf : DotDims.WF S3200000x1 S1x64 S3200000x64 [1] [0] [0] [1] [] []
  dot_S100000x192_S192x64_S100000x64_1_0_0_1_n_n_wf : DotDims.WF S100000x192 S192x64 S100000x64 [1] [0] [0] [1] [] []

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S3200000x1_S1x64_S3200000x64_1_0_0_1_n_n : DotDims S3200000x1 S1x64 S3200000x64 where
  lhsContracting := [1]
  rhsContracting := [0]
  lhsNonContracting := [0]
  rhsNonContracting := [1]
  lhsBatch := []
  rhsBatch := []
  wf := dot_S3200000x1_S1x64_S3200000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.Spec.lean ====
/-
  What the two programs compute, as functions of ONE ROW of a node's data.

  A node `n` carries a scalar `x n`, and two aggregated feature rows `amu n ·`, `aw n ·` (64 entries each: the sums over the
  edges arriving at `n` of the source node's features, and of the per-edge features). The node's result row is
  `relu (relu (cat · Wc0ᵀ) · Wc1ᵀ)` where `cat` is the 192-entry row made of three 64-entry pieces laid side by side:
  `x n · w1`, `amu n · W2ᵀ`, `aw n · W3ᵀ`. Every product with a transposed weight matrix is written as the sum over the
  contracted coordinate with the weight read at its own (row, column), so no transpose appears here.
  A per-edge feature is `relu (weight e · w4 p)`.

  Both the blockwise program (2000 node rows, or 8000 edge rows, at a time) and the whole-array program compute these
  row functions; only which rows they are handed at a time differs. Everything is over the extended reals.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `a` rows and `b` columns. -/
abbrev Mat (a b : Nat) : Type := (⟨2, ![a, b]⟩ : Shape).Idx → EReal

/-- One per-edge feature: the edge's weight times the feature's coefficient, clipped below at zero. -/
def edgeAt (w : EReal) (w4 : Mat 1 64) (p : Fin 64) : EReal :=
  max (w * w4 (ix2 0 p)) 0

/-- The per-edge features of `E` edges, index by index. -/
def edge {E : Nat} (wt : Mat E 1) (w4 : Mat 1 64) : Mat E 64 :=
  fun i => edgeAt (wt (ix2 (i 0) 0)) w4 (i 1)

/-- Entry `j` of a node's 192-entry concatenated row: the first 64 entries are the node's scalar times `w1`, the next 64 the
    aggregated source features against the rows of `W2`, the last 64 the aggregated edge features against the rows of `W3`. -/
def catRow (xr : EReal) (amur awr : Fin 64 → EReal) (w1 : Mat 1 64) (W2 W3 : Mat 64 64) (j : Fin 192) : EReal :=
  if h : j.val < 64 then xr * w1 (ix2 0 ⟨j.val, h⟩)
  else if h2 : j.val < 128 then ∑ k : Fin 64, amur k * W2 (ix2 ⟨j.val - 64, by omega⟩ k)
  else ∑ k : Fin 64, awr k * W3 (ix2 ⟨j.val - 128, by omega⟩ k)

/-- Entry `q` of a node's hidden row: the concatenated row against row `q` of `Wc0`, clipped below at zero. -/
def hidRow (xr : EReal) (amur awr : Fin 64 → EReal) (w1 : Mat 1 64) (W2 W3 : Mat 64 64) (Wc0 : Mat 64 192) (q : Fin 64) : EReal :=
  max (∑ j : Fin 192, catRow xr amur awr w1 W2 W3 j * Wc0 (ix2 q j)) 0

/-- Entry `p` of a node's result row: the hidden row against row `p` of `Wc1`, clipped below at zero. -/
def nodeRow (xr : EReal) (amur awr : Fin 64 → EReal) (w1 : Mat 1 64) (W2 W3 : Mat 64 64) (Wc0 : Mat 64 192) (Wc1 : Mat 64 64)
    (p : Fin 64) : EReal :=
  max (∑ q : Fin 64, hidRow xr amur awr w1 W2 W3 Wc0 q * Wc1 (ix2 p q)) 0

/-- The result rows of `N` nodes, index by index: row `n` is `nodeRow` of node `n`'s scalar and aggregated rows. -/
def node {N : Nat} (x : Mat N 1) (amu aw : Mat N 64) (w1 : Mat 1 64) (W2 W3 : Mat 64 64) (Wc0 : Mat 64 192) (Wc1 : Mat 64 64) :
    Mat N 64 :=
  fun i => nodeRow (x (ix2 (i 0) 0)) (fun k => amu (ix2 (i 0) k)) (fun k => aw (ix2 (i 0) k)) w1 W2 W3 Wc0 Wc1 (i 1)

end Cert.Spec

end
-- ==== Proof.EdgePay.lean ====
/-
  The per-edge body at one entry. The body multiplies the block's weight column (8000 rows, one column), spread across 64
  columns, by the coefficient row (one row, 64 columns), spread down 8000 rows, and clips the product below at zero. At row
  `r` and column `p` that is `max (weight r · w4 p) 0`: the per-edge feature of the specification.
-/
import proofs.«132933_j13597866459920_1_alg».proof.Proof.Gen.KernelIdeal.Skeleton
import proofs.«132933_j13597866459920_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- A column of `a` rows spread across `b` columns reads, at row `p` and any column, the column's entry in row `p`. -/
theorem edge_column_spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The edge body's stored value at row `r`, column `p` of its block. -/
theorem edge_pay (v0 : Vec Ideal S8000x1 .f32) (v1 : Vec Ideal S1x64 .f32) (r : Fin 8000) (p : Fin 64) :
    k0_pay1 (F := Ideal) v0 v1 (ix2 r p) = Cert.Spec.edgeAt (v0 (ix2 r 0)) v1 p := by
  unfold k0_pay1
  -- the clip and the product are entrywise; the zero word is the extended real 0
  show max (broadcastTo S8000x64 v0 broadcasts_S8000x1_S8000x64 (ix2 r p)
      * broadcastTo S8000x64 (shapeCast S1x64 v1 shapeCasts_S1x64_S1x64) broadcasts_S1x64_S8000x64 (ix2 r p))
      (Ideal.ofBits .f32 0x00000000#32) = _
  -- the column spread across reads row r; the row spread down reads column p; the cast to the same shape is the identity
  rw [shapeCast_self, edge_column_spread_apply, broadcastTo_1b_ab_apply, Ideal.ofBits_zero_f32]
  rfl

end Cert.KernelIdeal.Pay

end
-- ==== Proof.EdgeValue.lean ====
/-
  The per-edge features as ONE array. The edge region runs over 400 grid points; point `t` reads rows 8000·t … 8000·t+7999
  of the weight column and the whole coefficient row, and writes back rows 8000·t … 8000·t+7999 of the result. What it writes
  is that block of the whole-array function `Spec.edge`, and the 400 blocks cover the 3,200,000 rows, so after the region the
  result array IS `Spec.edge` of the arrays the region was entered with.
-/
import proofs.«132933_j13597866459920_1_alg».proof.Proof.Gen.KernelIdeal.Frame
import proofs.«132933_j13597866459920_1_alg».proof.Proof.EdgePay
import Idealize.ShloMosaic.Lib.Pipeline.Value

set_option maxRecDepth 16384
noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offsets of a rectangle that starts at the origin, as a constant function. -/
theorem edge_origin : (![0, 0] : Fin 2 → Nat) = fun _ => 0 := funext fun a => by fin_cases a <;> rfl

/-- The block index maps of the edge region, point by point: the weight column and the result move together, block `t` of
    8000 rows at point `t`, on their one block of columns; the coefficient row stays at its one block. -/
theorem edge_block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the weight block at point `t` is the weight column's row `8000·t + r`. -/
theorem edge_weight_block (c : Dev nD) (t : Fin cfg0.N) (r : Fin 8000) (k : S3200000x1.Idx)
    (hk : (k 0).val = 8000 * t.val + r.val) :
    (iblk0 (F := Ideal) V c 0 t : Vec Ideal S8000x1 .f32) (ix2 r 0) = (V c main_arg2 : S3200000x1.Idx → Elt Ideal .f32) k := by
  obtain ⟨e00, e01, -⟩ := edge_block_index t
  unfold iblk0
  show V c main_arg2 (((cfg0.win 0).blk t).view.emb (ix2 r 0)) = V c main_arg2 k
  congr 1
  funext a
  apply Fin.ext
  have hk1 : (k 1).val < 1 := idx2_lt1 k
  match a with
  | ⟨0, _⟩ => show win0_0.index t (0 : Fin 2) * 8000 + 1 * r.val = (k 0).val; rw [e00, hk]; omega
  | ⟨1, _⟩ => show win0_0.index t (1 : Fin 2) * 1 + 1 * 0 = (k 1).val; rw [e01]; omega

/-- The coefficient block at every point is the whole coefficient row. -/
theorem edge_coeff_block (c : Dev nD) (t : Fin cfg0.N) :
    (iblk0 (F := Ideal) V c 1 t : Vec Ideal S1x64 .f32) = (V c main_v4 : S1x64.Idx → Elt Ideal .f32) := by
  obtain ⟨-, -, e10, e11, -⟩ := edge_block_index t
  unfold iblk0
  funext y
  show V c main_v4 (((cfg0.win 1).blk t).view.emb y) = V c main_v4 y
  congr 1
  funext a
  apply Fin.ext
  match a with
  | ⟨0, _⟩ => show win0_1.index t (0 : Fin 2) * 1 + 1 * (y 0).val = (y 0).val; rw [e10]; omega
  | ⟨1, _⟩ => show win0_1.index t (1 : Fin 2) * 64 + 1 * (y 1).val = (y 1).val; rw [e11]; omega

/-- What point `t` writes back is block `t` of the per-edge feature array: entry (r, p) of the written block is the feature
    `p` of edge `8000·t + r`. -/
theorem edge_flushed (c : Dev nD) (t : Fin cfg0.N) :
    (dat0 (F := Ideal) V c).flushed 2 t
      = ((cfg0.win 2).blk t).view.read (Elt Ideal) (Cert.Spec.edge (V c main_arg2) (V c main_v4)) := by
  show (cfg0.win 2).cut (grid0.coords t) ((dat0 V c).after 2 t) = _
  rw [after0_2]
  unfold out0_2
  rw [View.canon_unit_zero edge_origin]
  simp only [View.ld_unit_zero (S := S8000x1) edge_origin, View.ld_unit_zero (S := S1x64) edge_origin]
  obtain ⟨-, -, -, -, e20, e21⟩ := edge_block_index t
  funext j
  obtain ⟨r, p, rfl⟩ : ∃ (r : Fin 8000) (p : Fin 64), j = ix2 r p := ⟨j 0, j 1, eq_ix2 j⟩
  show k0_pay1 (iblk0 V c 0 t) (iblk0 V c 1 t) (ix2 r p)
    = Cert.Spec.edge (V c main_arg2) (V c main_v4) (((cfg0.win 2).blk t).view.emb (ix2 r p))
  refine (Pay.edge_pay _ _ r p).trans ?_
  -- the written entry sits in the array at row 8000·t + r, column p
  have hrow : ((((cfg0.win 2).blk t).view.emb (ix2 r p)) 0).val = 8000 * t.val + r.val := by
    show win0_2.index t (0 : Fin 2) * 8000 + 1 * r.val = _; rw [e20]; omega
  have hcol : (((cfg0.win 2).blk t).view.emb (ix2 r p)) 1 = p :=
    Fin.ext (by show win0_2.index t (1 : Fin 2) * 64 + 1 * p.val = p.val; rw [e21]; omega)
  unfold Cert.Spec.edge
  rw [edge_coeff_block V c t,
    edge_weight_block V c t r (ix2 (n0 := 3200000) (n1 := 1) ((((cfg0.win 2).blk t).view.emb (ix2 r p)) 0) 0) hrow, hcol]

/-- An index of the result array is in point `t`'s block when each coordinate is in the block's range on its axis. -/
theorem edge_mem_block (t : Fin cfg0.N) (i : S3200000x64.Idx) :
    i ∈ ((cfg0.win 2).blk t).view.set
      ↔ ∀ a : Fin 2, win0_2.index t a * S8000x64.size a ≤ (i a).val ∧ (i a).val < win0_2.index t a * S8000x64.size a + S8000x64.size a := by
  show i ∈ ((View.whole main_v5).slice (win0_2.rect t)).set ↔ _
  rw [View.set_slice_whole, Rect.mem_set_unit]
  exact Iff.rfl

/-- After the edge region, its result array (window 2) is the per-edge feature array of the weight column (`main_arg2`) and
    the coefficient row (`main_v4`) as the region found them. -/
theorem edge_final (c : Dev nD) :
    (dat0 (F := Ideal) V c).arrAt 2 cfg0.N = Cert.Spec.edge (V c main_arg2) (V c main_v4) := by
  -- row n of the result lies in the block of point n / 8000, and every point writes its block back
  refine (dat0 V c).arrAt_eq_of_cover 2 _ (fun t _ => edge_flushed V c t) fun i => ?_
  have hi0 : (i 0).val < 3200000 := (i 0).isLt
  have hi1 : (i 1).val < 64 := (i 1).isLt
  have hN : cfg0.N = 400 := N_0
  refine ⟨⟨(i 0).val / 8000, by rw [hN]; omega⟩, flush0_2 _, ?_⟩
  rw [edge_mem_block]
  obtain ⟨-, -, -, -, e20, e21⟩ := edge_block_index ⟨(i 0).val / 8000, by rw [hN]; omega⟩
  intro a
  match a with
  | ⟨0, _⟩ =>
    show win0_2.index _ (0 : Fin 2) * 8000 ≤ (i 0).val ∧ (i 0).val < win0_2.index _ (0 : Fin 2) * 8000 + 8000
    rw [e20]; show (i 0).val / 8000 * 8000 ≤ (i 0).val ∧ (i 0).val < (i 0).val / 8000 * 8000 + 8000; omega
  | ⟨1, _⟩ =>
    show win0_2.index _ (1 : Fin 2) * 64 ≤ (i 1).val ∧ (i 1).val < win0_2.index _ (1 : Fin 2) * 64 + 64
    rw [e21]; omega

end Cert.KernelIdeal.KValue

end
-- ==== Proof.NodePay.lean ====
/-
  The node body at one entry. The body forms, for a block of 2000 node rows, the three 64-column pieces (the scalar column
  times the row `w1`; the aggregated source features times `W2` transposed; the aggregated edge features times `W3`
  transposed), lays them side by side into 192 columns, multiplies by `Wc0` transposed, clips at zero, multiplies by `Wc1`
  transposed and clips at zero. Every matrix product starts from a zero accumulator, so it is the plain sum over the
  contracted coordinate; a transposed weight read at (k, j) is the weight at (j, k); narrowing to the 16-bit format is the
  identity on extended reals. So row `r`, column `p` of the stored block is the specification's `nodeRow` of row `r`'s data.
-/
import proofs.«132933_j13597866459920_1_alg».proof.Proof.Gen.KernelIdeal.Skeleton
import proofs.«132933_j13597866459920_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The two contractions' operand indices, axis by axis -/

theorem lhs_d64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_d64_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_d64_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_d64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A product of a 2000×64 block with a 64×64 matrix, started from zero, at (r, j): the sum over the 64 contracted
    coordinates of the left factor at (r, k) times the right at (k, j). -/
theorem mm64_apply {φ₁ φ₂ : FTy} (L : FVec Ideal S2000x64 φ₁) (R : FVec Ideal S64x64 φ₂) (r : Fin 2000) (j : Fin 64) :
    matmul dot_S2000x64_S64x64_S2000x64_1_0_0_1_n_n none L R (constant (F := Ideal) S2000x64 .f32 0x00000000#32) (ix2 r j)
      = ∑ k : Fin 64, L (ix2 r k) * R (ix2 k j) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 r j) ((contrEquiv1 dot_S2000x64_S64x64_S2000x64_1_0_0_1_n_n 64 rfl rfl).symm k) = ix2 r k := funext fun a => Fin.ext (by
    match a with
    | ⟨0, _⟩ => exact lhs_d64_0 _ _
    | ⟨1, _⟩ => exact (lhs_d64_1 _ _).trans hk)
  have er : dot_S2000x64_S64x64_S2000x64_1_0_0_1_n_n.rhsIdx (ix2 r j) ((contrEquiv1 dot_S2000x64_S64x64_S2000x64_1_0_0_1_n_n 64 rfl rfl).symm k) = ix2 k j := funext fun a => Fin.ext (by
    match a with
    | ⟨0, _⟩ => exact (rhs_d64_0 _ _).trans hk
    | ⟨1, _⟩ => exact rhs_d64_1 _ _)
  rw [el, er]

theorem lhs_d192_0 (i : S2000x64.Idx) (q : dot_S2000x192_S192x64_S2000x64_1_0_0_1_n_n.contr.Idx) :
    (dot_S2000x192_S192x64_S2000x64_1_0_0_1_n_n.lhsIdx i q 0).val = (i 0).val := by
  unfold DotDims.lhsIdx
  rw [dif_neg (show ¬(0 : Fin S2000x192.rank) ∈ dot_S2000x192_S192x64_S2000x64_1_0_0_1_n_n.lhsBatch by decide), dif_pos (show (0 : Fin S2000x192.rank) ∈ dot_S2000x192_S192x64_S2000x64_1_0_0_1_n_n.lhsNonContracting by decide)]
  rfl
theorem lhs_d192_1 (i : S2000x64.Idx) (q : dot_S2000x192_S192x64_S2000x64_1_0_0_1_n_n.contr.Idx) :
    (dot_S2000x192_S192x64_S2000x64_1_0_0_1_n_n.lhsIdx i q 1).val = (q ⟨0, by decide⟩).val :=
  dot_S2000x192_S192x64_S2000x64_1_0_0_1_n_n.lhsIdx_val_of_single rfl i q
theorem rhs_d192_0 (i : S2000x64.Idx) (q : dot_S2000x192_S192x64_S2000x64_1_0_0_1_n_n.contr.Idx) :
    (dot_S2000x192_S192x64_S2000x64_1_0_0_1_n_n.rhsIdx i q 0).val = (q ⟨0, by decide⟩).val :=
  dot_S2000x192_S192x64_S2000x64_1_0_0_1_n_n.rhsIdx_val_of_single rfl i q
theorem rhs_d192_1 (i : S2000x64.Idx) (q : dot_S2000x192_S192x64_S2000x64_1_0_0_1_n_n.contr.Idx) :
    (dot_S2000x192_S192x64_S2000x64_1_0_0_1_n_n.rhsIdx i q 1).val = (i 1).val := by
  unfold DotDims.rhsIdx
  rw [dif_neg (show ¬(1 : Fin S192x64.rank) ∈ dot_S2000x192_S192x64_S2000x64_1_0_0_1_n_n.rhsBatch by decide), dif_pos (show (1 : Fin S192x64.rank) ∈ dot_S2000x192_S192x64_S2000x64_1_0_0_1_n_n.rhsNonContracting by decide)]
  rfl

/-- A product of a 2000×192 block with a 192×64 matrix, started from zero, at (r, j): the sum over the 192 contracted
    coordinates of the left factor at (r, k) times the right at (k, j). -/
theorem mm192_apply {φ₁ φ₂ : FTy} (L : FVec Ideal S2000x192 φ₁) (R : FVec Ideal S192x64 φ₂) (r : Fin 2000) (j : Fin 64) :
    matmul dot_S2000x192_S192x64_S2000x64_1_0_0_1_n_n none L R (constant (F := Ideal) S2000x64 .f32 0x00000000#32) (ix2 r j)
      = ∑ k : Fin 192, L (ix2 r k) * R (ix2 k j) := by
  simp only [matmul]
  rw [Ideal.matmul_constant_zero_apply, ← Equiv.sum_comp (contrEquiv1 dot_S2000x192_S192x64_S2000x64_1_0_0_1_n_n 192 rfl rfl).symm]
  refine Finset.sum_congr rfl fun k _ => ?_
  have hk := contrEquiv1_symm_val dot_S2000x192_S192x64_S2000x64_1_0_0_1_n_n 192 rfl rfl k
  have el : dot_S2000x192_S192x64_S2000x64_1_0_0_1_n_n.lhsIdx (ix2 r j) ((contrEquiv1 dot_S2000x192_S192x64_S2000x64_1_0_0_1_n_n 192 rfl rfl).symm k) = ix2 r k := funext fun a => Fin.ext (by
    match a with
    | ⟨0, _⟩ => exact lhs_d192_0 _ _
    | ⟨1, _⟩ => exact (lhs_d192_1 _ _).trans hk)
  have er : dot_S2000x192_S192x64_S2000x64_1_0_0_1_n_n.rhsIdx (ix2 r j) ((contrEquiv1 dot_S2000x192_S192x64_S2000x64_1_0_0_1_n_n 192 rfl rfl).symm k) = ix2 k j := funext fun a => Fin.ext (by
    match a with
    | ⟨0, _⟩ => exact (rhs_d192_0 _ _).trans hk
    | ⟨1, _⟩ => exact rhs_d192_1 _ _)
  rw [el, er]

/-! ## Layout operations at an entry -/

/-- A column of `a` entries repeated across `b` columns reads, at (p, c), the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Three 2000×64 blocks laid side by side: a column below 64 lies in the first block. -/
theorem cat3_apply_fst {α : Type} (A B C : S2000x64.Idx → α) (r : Fin 2000) (j : Fin 192) (h : j.val < 64) :
    concatenate S2000x192 1 [⟨S2000x64, A⟩, ⟨S2000x64, B⟩, ⟨S2000x64, C⟩]
        concatenates_S2000x64_S2000x64_S2000x64_S2000x192_d1 (ix2 r j) = A (ix2 r ⟨j.val, h⟩) := by
  refine concatenate_apply_piece (1 : Fin S2000x192.rank) _ _ (ix2 r j) 0 (by show (0 : ℕ) < 3; omega) S2000x64 A rfl rfl 0 rfl
    (ix2 r (⟨j.val, h⟩ : Fin 64)) (fun b hb => ?_) ?_
  · match b with
    | ⟨0, _⟩ => rfl
    | ⟨1, _⟩ => exact absurd rfl hb
  · show 0 + j.val = j.val
    omega

/-- A column from 64 up to 127 lies in the second block, at that column less 64. -/
theorem cat3_apply_snd {α : Type} (A B C : S2000x64.Idx → α) (r : Fin 2000) (j : Fin 192) (h1 : ¬ j.val < 64)
    (h2 : j.val < 128) :
    concatenate S2000x192 1 [⟨S2000x64, A⟩, ⟨S2000x64, B⟩, ⟨S2000x64, C⟩]
        concatenates_S2000x64_S2000x64_S2000x64_S2000x192_d1 (ix2 r j) = B (ix2 r ⟨j.val - 64, by omega⟩) := by
  refine concatenate_apply_piece (1 : Fin S2000x192.rank) _ _ (ix2 r j) 1 (by show (1 : ℕ) < 3; omega) S2000x64 B rfl rfl 64 rfl
    (ix2 r (⟨j.val - 64, by omega⟩ : Fin 64)) (fun b hb => ?_) ?_
  · match b with
    | ⟨0, _⟩ => rfl
    | ⟨1, _⟩ => exact absurd rfl hb
  · show 64 + (j.val - 64) = j.val
    omega

/-- A column from 128 up lies in the third block, at that column less 128. -/
theorem cat3_apply_thd {α : Type} (A B C : S2000x64.Idx → α) (r : Fin 2000) (j : Fin 192) (h2 : ¬ j.val < 128) :
    concatenate S2000x192 1 [⟨S2000x64, A⟩, ⟨S2000x64, B⟩, ⟨S2000x64, C⟩]
        concatenates_S2000x64_S2000x64_S2000x64_S2000x192_d1 (ix2 r j)
      = C (ix2 r ⟨j.val - 128, by have := j.isLt; omega⟩) := by
  refine concatenate_apply_piece (1 : Fin S2000x192.rank) _ _ (ix2 r j) 2 (by show (2 : ℕ) < 3; omega) S2000x64 C rfl rfl 128 rfl
    (ix2 r (⟨j.val - 128, by have := j.isLt; omega⟩ : Fin 64)) (fun b hb => ?_) ?_
  · match b with
    | ⟨0, _⟩ => rfl
    | ⟨1, _⟩ => exact absurd rfl hb
  · show 128 + (j.val - 128) = j.val
    omega

/-! ## The body's stages at an entry -/

/-- The word the body clips against denotes the extended real zero. -/
theorem clip_word : Scalar.ofBits (F := Ideal) .f32 0x00000000#32 = (0 : EReal) := by
  show Ideal.ofBits .f32 0x00000000#32 = 0
  exact Ideal.ofBits_zero_f32

/-- The first piece: the column of node scalars, repeated across 64 columns, times the row `w1`, repeated down 2000 rows. -/
theorem piece_scalar (x : FVec Ideal S2000x1 .f32) (w1 : FVec Ideal S1x64 .f32) (r : Fin 2000) (j : Fin 64) :
    mulf (broadcastTo S2000x64 x broadcasts_S2000x1_S2000x64)
        (broadcastTo S2000x64 (shapeCast S1x64 w1 shapeCasts_S1x64_S1x64) broadcasts_S1x64_S2000x64) (ix2 r j)
      = x (ix2 r 0) * w1 (ix2 0 j) := by
  rw [mulf_apply, shapeCast_self, broadcastTo_a1_ab_apply, broadcastTo_1b_ab_apply]

/-- A middle or last piece: a block of aggregated rows times a transposed 64×64 weight; the narrowing of both factors is the
    identity and the transposed weight at (k, j) is the weight at (j, k). -/
theorem piece_agg (X : FVec Ideal S2000x64 .f32) (W : FVec Ideal S64x64 .f32) (r : Fin 2000) (j : Fin 64) :
    matmul dot_S2000x64_S64x64_S2000x64_1_0_0_1_n_n none
        (truncf .bf16 (shapeCast S2000x64 X shapeCasts_S2000x64_S2000x64) bitsLt_bf16_f32)
        (transpose S64x64 [1, 0] (truncf .bf16 W bitsLt_bf16_f32) transposes_S64x64_p1_0_S64x64)
        (constant (F := Ideal) S2000x64 .f32 0x00000000#32) (ix2 r j)
      = ∑ k : Fin 64, X (ix2 r k) * W (ix2 j k) := by
  rw [mm64_apply]
  refine Finset.sum_congr rfl fun k _ => ?_
  rw [truncf_apply, shapeCast_self, transpose_ix2_apply, truncf_apply]

/-- The hidden layer: the 192-column block times `Wc0` transposed, clipped below at zero. -/
theorem layer_hid (cat : FVec Ideal S2000x192 .f32) (Wc0 : FVec Ideal S64x192 .f32) (r : Fin 2000) (q : Fin 64) :
    maximumf (matmul dot_S2000x192_S192x64_S2000x64_1_0_0_1_n_n none
          (truncf .bf16 cat bitsLt_bf16_f32)
          (transpose S192x64 [1, 0] (truncf .bf16 Wc0 bitsLt_bf16_f32) transposes_S64x192_p1_0_S192x64)
          (constant (F := Ideal) S2000x64 .f32 0x00000000#32))
        (broadcast S2000x64 (Scalar.ofBits (F := Ideal) .f32 0x00000000#32)) (ix2 r q)
      = max (∑ j : Fin 192, cat (ix2 r j) * Wc0 (ix2 q j)) 0 := by
  rw [maximumf_apply, broadcast_apply, clip_word, mm192_apply]
  refine congrArg (fun s => max s (0 : EReal)) (Finset.sum_congr rfl fun j _ => ?_)
  rw [truncf_apply, transpose_ix2_apply, truncf_apply]

/-- The output layer: the hidden block times `Wc1` transposed, clipped below at zero. -/
theorem layer_out (hid : FVec Ideal S2000x64 .f32) (Wc1 : FVec Ideal S64x64 .f32) (r : Fin 2000) (p : Fin 64) :
    maximumf (matmul dot_S2000x64_S64x64_S2000x64_1_0_0_1_n_n none
          (truncf .bf16 hid bitsLt_bf16_f32)
          (transpose S64x64 [1, 0] (truncf .bf16 Wc1 bitsLt_bf16_f32) transposes_S64x64_p1_0_S64x64)
          (constant (F := Ideal) S2000x64 .f32 0x00000000#32))
        (broadcast S2000x64 (Scalar.ofBits (F := Ideal) .f32 0x00000000#32)) (ix2 r p)
      = max (∑ q : Fin 64, hid (ix2 r q) * Wc1 (ix2 p q)) 0 := by
  rw [maximumf_apply, broadcast_apply, clip_word, mm64_apply]
  refine congrArg (fun s => max s (0 : EReal)) (Finset.sum_congr rfl fun q _ => ?_)
  rw [truncf_apply, transpose_ix2_apply, truncf_apply]

/-- The node body's stored value at row `r`, column `p` of its block: `v0` the block of node scalars, `v1` the row `w1`,
    `v6` / `v9` the blocks of aggregated source / edge features, `v12` = W2, `v14` = W3, `v21` = Wc0, `v28` = Wc1. -/
theorem node_pay (v0 : Vec Ideal S2000x1 .f32) (v1 : Vec Ideal S1x64 .f32) (v6 v9 : Vec Ideal S2000x64 .f32)
    (v12 v14 : Vec Ideal S64x64 .f32) (v21 : Vec Ideal S64x192 .f32) (v28 : Vec Ideal S64x64 .f32) (r : Fin 2000) (p : Fin 64) :
    k1_pay1 (F := Ideal) v0 v1 v6 v9 v12 v14 v21 v28 (ix2 r p)
      = Cert.Spec.nodeRow (v0 (ix2 r 0)) (fun k => v6 (ix2 r k)) (fun k => v9 (ix2 r k)) v1 v12 v14 v21 v28 p := by
  unfold k1_pay1
  refine (layer_out _ v28 r p).trans ?_
  unfold Cert.Spec.nodeRow
  refine congrArg (fun s => max s (0 : EReal)) (Finset.sum_congr rfl fun q _ => congrArg (fun t => t * v28 (ix2 p q)) ?_)
  refine (layer_hid _ v21 r q).trans ?_
  unfold Cert.Spec.hidRow
  refine congrArg (fun s => max s (0 : EReal)) (Finset.sum_congr rfl fun j _ => congrArg (fun t => t * v21 (ix2 q j)) ?_)
  unfold Cert.Spec.catRow
  by_cases h1 : j.val < 64
  · rw [dif_pos h1, cat3_apply_fst _ _ _ r j h1]
    exact piece_scalar v0 v1 r ⟨j.val, h1⟩
  · rw [dif_neg h1]
    by_cases h2 : j.val < 128
    · rw [dif_pos h2, cat3_apply_snd _ _ _ r j h1 h2]
      exact piece_agg v6 v12 r _
    · rw [dif_neg h2, cat3_apply_thd _ _ _ r j h2]
      exact piece_agg v9 v14 r _

end Cert.KernelIdeal.Pay

end
-- ==== Proof.NodeValue.lean ====
/-
  The node results as ONE array. The node region runs over 50 grid points; point `t` reads rows 2000·t … 2000·t+1999 of the
  node scalars and of the two aggregated feature arrays, the whole of the five weight arrays, and writes back rows
  2000·t … 2000·t+1999 of the result. What it writes is that block of the whole-array function `Spec.node`, and the 50 blocks
  cover the 100,000 rows, so after the region the result array IS `Spec.node` of the arrays the region was entered with.
-/
import proofs.«132933_j13597866459920_1_alg».proof.Proof.Gen.KernelIdeal.Frame
import proofs.«132933_j13597866459920_1_alg».proof.Proof.NodePay
import Idealize.ShloMosaic.Lib.Pipeline.Value

set_option maxRecDepth 16384
noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offsets of a rectangle that starts at the origin, as a constant function. -/
theorem node_origin : (![0, 0] : Fin 2 → Nat) = fun _ => 0 := funext fun a => by fin_cases a <;> rfl

/-- The block index maps of the node region's row-blocked arrays, point by point: the node scalars, the two aggregated
    feature arrays and the result move together, block `t` of 2000 rows at point `t`, on their one block of columns. -/
theorem node_row_block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_8.index t (0 : Fin 2) = t.val ∧ win1_8.index t (1 : Fin 2) = 0) :=
  (by decide +kernel : ∀ t : Fin grid1.N, _)

/-- The block index maps of the five weight arrays (the row `w1`, then W2, W3, Wc0, Wc1), point by point: each stays at its
    one block. -/
theorem node_whole_block_index : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Row `r` of the node-scalar block at point `t` is the scalar of node `2000·t + r`. -/
theorem node_scalar_block (c : Dev nD) (t : Fin cfg1.N) (r : Fin 2000) (k : S100000x1.Idx)
    (hk : (k 0).val = 2000 * t.val + r.val) :
    (iblk1 (F := Ideal) V c 0 t : Vec Ideal S2000x1 .f32) (ix2 r 0) = (V c main_arg0 : S100000x1.Idx → Elt Ideal .f32) k := by
  obtain ⟨⟨e0, e1⟩, -⟩ := node_row_block_index t
  unfold iblk1
  show V c main_arg0 (((cfg1.win 0).blk t).view.emb (ix2 r 0)) = V c main_arg0 k
  congr 1
  funext a
  apply Fin.ext
  have hk1 : (k 1).val < 1 := idx2_lt1 k
  match a with
  | ⟨0, _⟩ => show win1_0.index t (0 : Fin 2) * 2000 + 1 * r.val = (k 0).val; rw [e0, hk]; omega
  | ⟨1, _⟩ => show win1_0.index t (1 : Fin 2) * 1 + 1 * 0 = (k 1).val; rw [e1]; omega

/-- Entry (r, q) of the aggregated-source-feature block at point `t` is entry (2000·t + r, q) of that array. -/
theorem node_source_block (c : Dev nD) (t : Fin cfg1.N) (r : Fin 2000) (q : Fin 64) (k : S100000x64.Idx)
    (hk0 : (k 0).val = 2000 * t.val + r.val) (hk1 : (k 1).val = q.val) :
    (iblk1 (F := Ideal) V c 1 t : Vec Ideal S2000x64 .f32) (ix2 r q) = (V c main_v15 : S100000x64.Idx → Elt Ideal .f32) k := by
  obtain ⟨-, ⟨e0, e1⟩, -⟩ := node_row_block_index t
  unfold iblk1
  show V c main_v15 (((cfg1.win 1).blk t).view.emb (ix2 r q)) = V c main_v15 k
  congr 1
  funext a
  apply Fin.ext
  match a with
  | ⟨0, _⟩ => show win1_1.index t (0 : Fin 2) * 2000 + 1 * r.val = (k 0).val; rw [e0, hk0]; omega
  | ⟨1, _⟩ => show win1_1.index t (1 : Fin 2) * 64 + 1 * q.val = (k 1).val; rw [e1, hk1]; omega

/-- Entry (r, q) of the aggregated-edge-feature block at point `t` is entry (2000·t + r, q) of that array. -/
theorem node_edgesum_block (c : Dev nD) (t : Fin cfg1.N) (r : Fin 2000) (q : Fin 64) (k : S100000x64.Idx)
    (hk0 : (k 0).val = 2000 * t.val + r.val) (hk1 : (k 1).val = q.val) :
    (iblk1 (F := Ideal) V c 2 t : Vec Ideal S2000x64 .f32) (ix2 r q) = (V c main_v18 : S100000x64.Idx → Elt Ideal .f32) k := by
  obtain ⟨-, -, ⟨e0, e1⟩, -⟩ := node_row_block_index t
  unfold iblk1
  show V c main_v18 (((cfg1.win 2).blk t).view.emb (ix2 r q)) = V c main_v18 k
  congr 1
  funext a
  apply Fin.ext
  match a with
  | ⟨0, _⟩ => show win1_2.index t (0 : Fin 2) * 2000 + 1 * r.val = (k 0).val; rw [e0, hk0]; omega
  | ⟨1, _⟩ => show win1_2.index t (1 : Fin 2) * 64 + 1 * q.val = (k 1).val; rw [e1, hk1]; omega

/-- The block of the row `w1` at every point is the whole row. -/
theorem node_block3_whole (c : Dev nD) (t : Fin cfg1.N) :
    (iblk1 (F := Ideal) V c 3 t : Vec Ideal S1x64 .f32) = (V c main_v19 : S1x64.Idx → Elt Ideal .f32) := by
  obtain ⟨⟨e0, e1⟩, -⟩ := node_whole_block_index t
  unfold iblk1
  funext y
  show V c main_v19 (((cfg1.win 3).blk t).view.emb y) = V c main_v19 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The block of `W2` at every point is the whole matrix. -/
theorem node_block4_whole (c : Dev nD) (t : Fin cfg1.N) :
    (iblk1 (F := Ideal) V c 4 t : Vec Ideal S64x64 .f32) = (V c main_arg5 : S64x64.Idx → Elt Ideal .f32) := by
  obtain ⟨-, ⟨e0, e1⟩, -⟩ := node_whole_block_index t
  unfold iblk1
  funext y
  show V c main_arg5 (((cfg1.win 4).blk t).view.emb y) = V c main_arg5 y
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The block of `W3` at every point is the whole matrix. -/
theorem node_block5_whole (c : Dev nD) (t : Fin cfg1.N) :
    (iblk1 (F := Ideal) V c 5 t : Vec Ideal S64x64 .f32) = (V c main_arg6 : S64x64.Idx → Elt Ideal .f32) := by
  obtain ⟨-, -, ⟨e0, e1⟩, -⟩ := node_whole_block_index t
  unfold iblk1
  funext y
  show V c main_arg6 (((cfg1.win 5).blk t).view.emb y) = V c main_arg6 y
  congr 1
  funext a
  apply Fin.ext
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

/-- The block of `Wc0` at every point is the whole matrix. -/
theorem node_block6_whole (c : Dev nD) (t : Fin cfg1.N) :
    (iblk1 (F := Ideal) V c 6 t : Vec Ideal S64x192 .f32) = (V c main_arg8 : S64x192.Idx → Elt Ideal .f32) := by
  obtain ⟨-, -, -, ⟨e0, e1⟩, -⟩ := node_whole_block_index t
  unfold iblk1
  funext y
  show V c main_arg8 (((cfg1.win 6).blk t).view.emb y) = V c main_arg8 y
  congr 1
  funext a
  apply Fin.ext
  match a with
  | ⟨0, _⟩ => show win1_6.index t (0 : Fin 2) * 64 + 1 * (y 0).val = (y 0).val; rw [e0]; omega
  | ⟨1, _⟩ => show win1_6.index t (1 : Fin 2) * 192 + 1 * (y 1).val = (y 1).val; rw [e1]; omega

/-- The block of `Wc1` at every point is the whole matrix. -/
theorem node_block7_whole (c : Dev nD) (t : Fin cfg1.N) :
    (iblk1 (F := Ideal) V c 7 t : Vec Ideal S64x64 .f32) = (V c main_arg9 : S64x64.Idx → Elt Ideal .f32) := by
  obtain ⟨-, -, -, -, ⟨e0, e1⟩⟩ := node_whole_block_index t
  unfold iblk1
  funext y
  show V c main_arg9 (((cfg1.win 7).blk t).view.emb y) = V c main_arg9 y
  congr 1
  funext a
  apply Fin.ext
  match a with
  | ⟨0, _⟩ => show win1_7.index t (0 : Fin 2) * 64 + 1 * (y 0).val = (y 0).val; rw [e0]; omega
  | ⟨1, _⟩ => show win1_7.index t (1 : Fin 2) * 64 + 1 * (y 1).val = (y 1).val; rw [e1]; omega

/-- What point `t` writes back is block `t` of the node-result array: row `r` of the written block is the result row of
    node `2000·t + r`. -/
theorem node_flushed (c : Dev nD) (t : Fin cfg1.N) :
    (dat1 (F := Ideal) V c).flushed 8 t
      = ((cfg1.win 8).blk t).view.read (Elt Ideal)
          (Cert.Spec.node (V c main_arg0) (V c main_v15) (V c main_v18) (V c main_v19) (V c main_arg5) (V c main_arg6)
            (V c main_arg8) (V c main_arg9)) := by
  show (cfg1.win 8).cut (grid1.coords t) ((dat1 V c).after 8 t) = _
  rw [after1_8]
  unfold out1_8
  rw [View.canon_unit_zero node_origin]
  simp only [View.ld_unit_zero (S := S2000x1) node_origin, View.ld_unit_zero (S := S1x64) node_origin,
    View.ld_unit_zero (S := S2000x64) node_origin, View.ld_unit_zero (S := S64x64) node_origin,
    View.ld_unit_zero (S := S64x192) node_origin]
  obtain ⟨-, -, -, ⟨e80, e81⟩⟩ := node_row_block_index t
  funext j
  obtain ⟨r, p, rfl⟩ : ∃ (r : Fin 2000) (p : Fin 64), j = ix2 r p := ⟨j 0, j 1, eq_ix2 j⟩
  show k1_pay1 (iblk1 V c 0 t) (iblk1 V c 3 t) (iblk1 V c 1 t) (iblk1 V c 2 t) (iblk1 V c 4 t) (iblk1 V c 5 t)
      (iblk1 V c 6 t) (iblk1 V c 7 t) (ix2 r p)
    = Cert.Spec.node (V c main_arg0) (V c main_v15) (V c main_v18) (V c main_v19) (V c main_arg5) (V c main_arg6)
        (V c main_arg8) (V c main_arg9) (((cfg1.win 8).blk t).view.emb (ix2 r p))
  refine (Pay.node_pay _ _ _ _ _ _ _ _ r p).trans ?_
  -- the written entry sits in the array at row 2000·t + r, column p
  have hrow : ((((cfg1.win 8).blk t).view.emb (ix2 r p)) 0).val = 2000 * t.val + r.val := by
    show win1_8.index t (0 : Fin 2) * 2000 + 1 * r.val = _; rw [e80]; omega
  have hcol : (((cfg1.win 8).blk t).view.emb (ix2 r p)) 1 = p :=
    Fin.ext (by show win1_8.index t (1 : Fin 2) * 64 + 1 * p.val = p.val; rw [e81]; omega)
  -- the three row-blocked inputs, read at row r of their blocks, are the arrays read at that row
  have hx := node_scalar_block V c t r (ix2 (n0 := 100000) (n1 := 1) ((((cfg1.win 8).blk t).view.emb (ix2 r p)) 0) 0) hrow
  have hmu : (fun q : Fin 64 => (iblk1 (F := Ideal) V c 1 t : Vec Ideal S2000x64 .f32) (ix2 r q))
      = fun q => (V c main_v15 : S100000x64.Idx → Elt Ideal .f32)
          (ix2 (n0 := 100000) (n1 := 64) ((((cfg1.win 8).blk t).view.emb (ix2 r p)) 0) q) :=
    funext fun q => node_source_block V c t r q _ hrow rfl
  have hw : (fun q : Fin 64 => (iblk1 (F := Ideal) V c 2 t : Vec Ideal S2000x64 .f32) (ix2 r q))
      = fun q => (V c main_v18 : S100000x64.Idx → Elt Ideal .f32)
          (ix2 (n0 := 100000) (n1 := 64) ((((cfg1.win 8).blk t).view.emb (ix2 r p)) 0) q) :=
    funext fun q => node_edgesum_block V c t r q _ hrow rfl
  unfold Cert.Spec.node
  rw [node_block3_whole V c t, node_block4_whole V c t, node_block5_whole V c t, node_block6_whole V c t,
    node_block7_whole V c t, hx, hmu, hw, hcol]

/-- An index of the result array is in point `t`'s block when each coordinate is in the block's range on its axis. -/
theorem node_mem_block (t : Fin cfg1.N) (i : S100000x64.Idx) :
    i ∈ ((cfg1.win 8).blk t).view.set
      ↔ ∀ a : Fin 2, win1_8.index t a * S2000x64.size a ≤ (i a).val ∧ (i a).val < win1_8.index t a * S2000x64.size a + S2000x64.size a := by
  show i ∈ ((View.whole main_v20).slice (win1_8.rect t)).set ↔ _
  rw [View.set_slice_whole, Rect.mem_set_unit]
  exact Iff.rfl

/-- After the node region, its result array (window 8) is the node-result array of the eight arrays the region found: the
    node scalars (`main_arg0`), the aggregated source features (`main_v15`), the aggregated edge features (`main_v18`), the
    row `w1` (`main_v19`), and the weights W2, W3, Wc0, Wc1 (`main_arg5`, `main_arg6`, `main_arg8`, `main_arg9`). -/
theorem node_final (c : Dev nD) :
    (dat1 (F := Ideal) V c).arrAt 8 cfg1.N
      = Cert.Spec.node (V c main_arg0) (V c main_v15) (V c main_v18) (V c main_v19) (V c main_arg5) (V c main_arg6)
          (V c main_arg8) (V c main_arg9) := by
  -- row n of the result lies in the block of point n / 2000, and every point writes its block back
  refine (dat1 V c).arrAt_eq_of_cover 8 _ (fun t _ => node_flushed V c t) fun i => ?_
  have hi0 : (i 0).val < 100000 := (i 0).isLt
  have hi1 : (i 1).val < 64 := (i 1).isLt
  have hN : cfg1.N = 50 := N_1
  refine ⟨⟨(i 0).val / 2000, by rw [hN]; omega⟩, flush1_8 _, ?_⟩
  rw [node_mem_block]
  obtain ⟨-, -, -, ⟨e80, e81⟩⟩ := node_row_block_index ⟨(i 0).val / 2000, by rw [hN]; omega⟩
  intro a
  match a with
  | ⟨0, _⟩ =>
    show win1_8.index _ (0 : Fin 2) * 2000 ≤ (i 0).val ∧ (i 0).val < win1_8.index _ (0 : Fin 2) * 2000 + 2000
    rw [e80]; show (i 0).val / 2000 * 2000 ≤ (i 0).val ∧ (i 0).val < (i 0).val / 2000 * 2000 + 2000; omega
  | ⟨1, _⟩ =>
    show win1_8.index _ (1 : Fin 2) * 64 ≤ (i 1).val ∧ (i 1).val < win1_8.index _ (1 : Fin 2) * 64 + 64
    rw [e81]; omega

end Cert.KernelIdeal.KValue

end
-- ==== Proof.HostRead.lean ====
/-
  What the blockwise program's arrays hold between its two regions, as functions of the argument arrays.

  Before the edge region the host only slices the two rows of the edge list apart and transposes the coefficient column
  `W4`; so the edge region's result is the per-edge feature array of the weight column and `W4` transposed. Between the
  regions the host normalises the source indices, gathers the source nodes' feature rows and sums them into their
  destination nodes (`aggMu`), sums the per-edge features into their destination nodes (`aggW`) and transposes the column
  `W1`. No host operation and no region writes an argument array. Hence the node region is entered with: the node scalars,
  `aggMu`, `aggW` of the per-edge features, `W1` transposed and the four weights, and its result is the specification's
  node-result array of those.
-/
import proofs.«132933_j13597866459920_1_alg».proof.Proof.Gen.KernelIdeal.Frame
import proofs.«132933_j13597866459920_1_alg».proof.Proof.EdgeValue
import proofs.«132933_j13597866459920_1_alg».proof.Proof.NodeValue
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.StableHlo
open Idealize.SL.Sem

/-! ## The host's aggregations, named -/

/-- Row 0 of the edge list (the source node of each edge) as a flat vector. -/
def srcRow (ei : (⟨S2x3200000, .i32⟩ : BufTy).Contents (Elt Ideal)) : (⟨S3200000, .i32⟩ : BufTy).Contents (Elt Ideal) :=
  shapeCast _ (extractStridedSlice S1x3200000 ![0, 0] ei slices_S2x3200000_S1x3200000_0_0) shapeCasts_S1x3200000_S3200000

/-- Row 1 of the edge list (the destination node of each edge) as a flat vector. -/
def dstRow (ei : (⟨S2x3200000, .i32⟩ : BufTy).Contents (Elt Ideal)) : (⟨S3200000, .i32⟩ : BufTy).Contents (Elt Ideal) :=
  shapeCast _ (extractStridedSlice S1x3200000 ![1, 0] ei slices_S2x3200000_S1x3200000_1_0) shapeCasts_S1x3200000_S3200000

/-- Per-edge rows summed into their destination nodes, from zero. -/
def aggW (ei : (⟨S2x3200000, .i32⟩ : BufTy).Contents (Elt Ideal)) (ew : (⟨S3200000x64, .f32⟩ : BufTy).Contents (Elt Ideal)) :
    (⟨S100000x64, .f32⟩ : BufTy).Contents (Elt Ideal) :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 (dstRow ei)) ew

/-- The source nodes' feature rows (a negative source index counted from the end), summed into the destination nodes. -/
def aggMu (mu : (⟨S100000x64, .f32⟩ : BufTy).Contents (Elt Ideal)) (ei : (⟨S2x3200000, .i32⟩ : BufTy).Contents (Elt Ideal)) :
    (⟨S100000x64, .f32⟩ : BufTy).Contents (Elt Ideal) :=
  aggW ei (Host.gather gather_S100000x64_S3200000x1_S3200000x64_1_0_n_n_0_1_164 mu
    (broadcastInDim S3200000x1 ![0] bcast_S3200000_S3200000x1_0
      (select (cmpi .slt (srcRow ei) (broadcastInDim S3200000 ![] bcast_S_S3200000 (constantI S_ 32 0#32)))
        (addi (srcRow ei) (broadcastInDim S3200000 ![] bcast_S_S3200000 (constantI S_ 32 100000#32))) (srcRow ei))))

variable (m : (ℓ : Loc nD τ sig) → Buf (Elt Ideal) ℓ) (ρ : Dev nD → PrngReg)

/-! ## Up to the edge region's exit -/

theorem V1_arg2 (c : Dev nD) : V1 m ρ c main_arg2 = m ((c : Thread nD τ).loc main_arg2) := by
  show StableHlo.after hostOps0 (W0 m ρ c) (Proc.devRef .tc main_arg2) = _
  after_results

theorem V1_v4 (c : Dev nD) :
    V1 m ρ c main_v4 = transpose S1x64 [1, 0] (m ((c : Thread nD τ).loc main_arg7)) transposes_S64x1_S1x64_1_0 := by
  show StableHlo.after hostOps0 (W0 m ρ c) (Proc.devRef .tc main_v4) = _
  after_results

/-- The edge region leaves the per-edge features of the weight column and the transposed coefficient column. -/
theorem W2_v5 (c : Dev nD) :
    W2 m ρ c (Proc.devRef .tc main_v5)
      = Cert.Spec.edge (m ((c : Thread nD τ).loc main_arg2))
          (transpose S1x64 [1, 0] (m ((c : Thread nD τ).loc main_arg7)) transposes_S64x1_S1x64_1_0) := by
  have h := (W2_arr m ρ c 2).trans (edge_final (V1 m ρ) c)
  rw [V1_arg2, V1_v4] at h
  exact h

theorem W2_v1 (c : Dev nD) : W2 m ρ c (Proc.devRef .tc main_v1) = srcRow (m ((c : Thread nD τ).loc main_arg3)) := by
  rw [W2_of_ne m ρ c main_v1 (by decide)]
  show StableHlo.after hostOps0 (W0 m ρ c) (Proc.devRef .tc main_v1) = _
  after_results; rfl

theorem W2_v3 (c : Dev nD) : W2 m ρ c (Proc.devRef .tc main_v3) = dstRow (m ((c : Thread nD τ).loc main_arg3)) := by
  rw [W2_of_ne m ρ c main_v3 (by decide)]
  show StableHlo.after hostOps0 (W0 m ρ c) (Proc.devRef .tc main_v3) = _
  after_results; rfl

theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results

theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results

/-! ## What the node region is entered with -/

theorem V3_v19 (c : Dev nD) :
    V3 m ρ c main_v19 = transpose S1x64 [1, 0] (m ((c : Thread nD τ).loc main_arg4)) transposes_S64x1_S1x64_1_0 := by
  show StableHlo.after hostOps1 (W2 m ρ c) (Proc.devRef .tc main_v19) = _
  after_results
  rw [W2_arg4]

theorem V3_v15 (c : Dev nD) :
    V3 m ρ c main_v15 = aggMu (m ((c : Thread nD τ).loc main_arg1)) (m ((c : Thread nD τ).loc main_arg3)) := by
  show StableHlo.after hostOps1 (W2 m ρ c) (Proc.devRef .tc main_v15) = _
  after_results
  rw [W2_v1, W2_v3, W2_arg1]
  rfl

theorem V3_v18 (c : Dev nD) :
    V3 m ρ c main_v18 = aggW (m ((c : Thread nD τ).loc main_arg3))
      (Cert.Spec.edge (m ((c : Thread nD τ).loc main_arg2))
        (transpose S1x64 [1, 0] (m ((c : Thread nD τ).loc main_arg7)) transposes_S64x1_S1x64_1_0)) := by
  show StableHlo.after hostOps1 (W2 m ρ c) (Proc.devRef .tc main_v18) = _
  after_results
  rw [W2_v3, W2_v5]
  rfl

/-- An input array of the node region that is an argument of the program: the region leaves it as it found it, and the
    whole run leaves it as launched. -/
theorem V3_arg0 (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem V3_arg5 (c : Dev nD) : V3 m ρ c main_arg5 = m ((c : Thread nD τ).loc main_arg5) :=
  ((W4_arr m ρ c 4).trans (((dat1 (V3 m ρ) c).arrAt_in 4 rfl _).trans (A_eq1 (V3 m ρ) c 4))).symm.trans (W4_main_arg5 m ρ c)
theorem V3_arg6 (c : Dev nD) : V3 m ρ c main_arg6 = m ((c : Thread nD τ).loc main_arg6) :=
  ((W4_arr m ρ c 5).trans (((dat1 (V3 m ρ) c).arrAt_in 5 rfl _).trans (A_eq1 (V3 m ρ) c 5))).symm.trans (W4_main_arg6 m ρ c)
theorem V3_arg8 (c : Dev nD) : V3 m ρ c main_arg8 = m ((c : Thread nD τ).loc main_arg8) :=
  ((W4_arr m ρ c 6).trans (((dat1 (V3 m ρ) c).arrAt_in 6 rfl _).trans (A_eq1 (V3 m ρ) c 6))).symm.trans (W4_main_arg8 m ρ c)
theorem V3_arg9 (c : Dev nD) : V3 m ρ c main_arg9 = m ((c : Thread nD τ).loc main_arg9) :=
  ((W4_arr m ρ c 7).trans (((dat1 (V3 m ρ) c).arrAt_in 7 rfl _).trans (A_eq1 (V3 m ρ) c 7))).symm.trans (W4_main_arg9 m ρ c)

/-! ## The result -/

/-- The blockwise program's result array after the run, as a function of the argument arrays. -/
def kernelResult (c : Dev nD) : (⟨S100000x64, .f32⟩ : BufTy).Contents (Elt Ideal) :=
  Cert.Spec.node (m ((c : Thread nD τ).loc main_arg0))
    (aggMu (m ((c : Thread nD τ).loc main_arg1)) (m ((c : Thread nD τ).loc main_arg3)))
    (aggW (m ((c : Thread nD τ).loc main_arg3))
      (Cert.Spec.edge (m ((c : Thread nD τ).loc main_arg2))
        (transpose S1x64 [1, 0] (m ((c : Thread nD τ).loc main_arg7)) transposes_S64x1_S1x64_1_0)))
    (transpose S1x64 [1, 0] (m ((c : Thread nD τ).loc main_arg4)) transposes_S64x1_S1x64_1_0)
    (m ((c : Thread nD τ).loc main_arg5)) (m ((c : Thread nD τ).loc main_arg6))
    (m ((c : Thread nD τ).loc main_arg8)) (m ((c : Thread nD τ).loc main_arg9))

/-- At the last segment boundary the result buffer holds `kernelResult`. -/
theorem W4_v20 (c : Dev nD) : W4 m ρ c (Proc.devRef .tc main_v20) = kernelResult m c := by
  have h := (W4_arr m ρ c 8).trans (node_final (V3 m ρ) c)
  rw [V3_arg0, V3_v15, V3_v18, V3_v19, V3_arg5, V3_arg6, V3_arg8, V3_arg9] at h
  exact h

end Cert.KernelIdeal.KValue

end
-- ==== Proof.RefNode.lean ====
/-
  The whole-array program against the specification. Its last stage is `relu (relu (cat · Wc0ᵀ) · Wc1ᵀ)` over all 100,000
  node rows, with `cat` the three pieces `x · w1`, `aggMu · W2ᵀ`, `aggW · W3ᵀ` side by side; read at an index, each product
  is the sum over the contracted coordinate and each transposed weight is the weight at the swapped index, so row `n` is the
  specification's `nodeRow` of row `n`'s data. The two aggregated arrays (sums over edges arriving at a node) are carried as
  they stand. Likewise its per-edge features `relu (weight · w4ᵀ)`, a product over a contracted axis of extent one.
-/
import proofs.«132933_j13597866459920_1_alg».proof.Proof.Gen.ReferenceIdeal.Read
import proofs.«132933_j13597866459920_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The left operand's index of the per-edge product: row `e`, the one contracted coordinate. -/
theorem lidx19_ix2 (e : Fin 3200000) (p : Fin 64) (k : Fin 1) : lidx_main_v19 (ix2 e p) k = ix2 e k :=
  funext fun a => Fin.ext (by match a with | ⟨0, _⟩ => rfl | ⟨1, _⟩ => rfl)

/-- The right operand's index of the per-edge product: the contracted coordinate, column `p`. -/
theorem ridx19_ix2 (e : Fin 3200000) (p : Fin 64) (k : Fin 1) : ridx_main_v19 (ix2 e p) k = ix2 k p :=
  funext fun a => Fin.ext (by match a with | ⟨0, _⟩ => rfl | ⟨1, _⟩ => rfl)

/-- The whole-array program's per-edge features are the specification's, of the weight column and the transposed
    coefficient column. -/
theorem ref_edge (x2 : (⟨S3200000x1, .f32⟩ : BufTy).Contents (Elt Ideal)) (x7 : (⟨S64x1, .f32⟩ : BufTy).Contents (Elt Ideal)) :
    val_main_v20 (F := Ideal) x2 x7 = Cert.Spec.edge x2 (val_main_v18 x7) := by
  funext i
  obtain ⟨e, p, rfl⟩ : ∃ (e : Fin 3200000) (p : Fin 64), i = ix2 e p := ⟨i 0, i 1, eq_ix2 i⟩
  rw [val_main_v20_apply, val_main_v19_apply, val_main_call0_v0_apply, val_main_call0_cst_apply,
    Fin.sum_univ_one, lidx19_ix2, ridx19_ix2]
  exact congrArg (max _) Ideal.ofBits_zero_f32

/-! ### The index functions of the node stages, at an index given by its coordinates

  A product's left operand is read at (row, contracted coordinate), its right operand at (contracted coordinate, column);
  a transposed weight at (k, c) is the weight at (c, k). -/

theorem lidx5_ix2 (n : Fin 100000) (c : Fin 64) (k : Fin 1) : lidx_main_v5 (ix2 n c) k = ix2 n k :=
  funext fun a => Fin.ext (by match a with | ⟨0, _⟩ => rfl | ⟨1, _⟩ => rfl)
theorem ridx5_ix2 (n : Fin 100000) (c : Fin 64) (k : Fin 1) : ridx_main_v5 (ix2 n c) k = ix2 k c :=
  funext fun a => Fin.ext (by match a with | ⟨0, _⟩ => rfl | ⟨1, _⟩ => rfl)
theorem lidx17_ix2 (n : Fin 100000) (c : Fin 64) (k : Fin 64) : lidx_main_v17 (ix2 n c) k = ix2 n k :=
  funext fun a => Fin.ext (by match a with | ⟨0, _⟩ => rfl | ⟨1, _⟩ => rfl)
theorem ridx17_ix2 (n : Fin 100000) (c : Fin 64) (k : Fin 64) : ridx_main_v17 (ix2 n c) k = ix2 k c :=
  funext fun a => Fin.ext (by match a with | ⟨0, _⟩ => rfl | ⟨1, _⟩ => rfl)
theorem idx16_ix2 (k c : Fin 64) : idx_main_v16 (ix2 k c) = ix2 c k :=
  funext fun a => Fin.ext (by match a with | ⟨0, _⟩ => rfl | ⟨1, _⟩ => rfl)
theorem lidx25_ix2 (n : Fin 100000) (c : Fin 64) (k : Fin 64) : lidx_main_v25 (ix2 n c) k = ix2 n k :=
  funext fun a => Fin.ext (by match a with | ⟨0, _⟩ => rfl | ⟨1, _⟩ => rfl)
theorem ridx25_ix2 (n : Fin 100000) (c : Fin 64) (k : Fin 64) : ridx_main_v25 (ix2 n c) k = ix2 k c :=
  funext fun a => Fin.ext (by match a with | ⟨0, _⟩ => rfl | ⟨1, _⟩ => rfl)
theorem idx24_ix2 (k c : Fin 64) : idx_main_v24 (ix2 k c) = ix2 c k :=
  funext fun a => Fin.ext (by match a with | ⟨0, _⟩ => rfl | ⟨1, _⟩ => rfl)
theorem lidx28_ix2 (n : Fin 100000) (q : Fin 64) (j : Fin 192) : lidx_main_v28 (ix2 n q) j = ix2 n j :=
  funext fun a => Fin.ext (by match a with | ⟨0, _⟩ => rfl | ⟨1, _⟩ => rfl)
theorem ridx28_ix2 (n : Fin 100000) (q : Fin 64) (j : Fin 192) : ridx_main_v28 (ix2 n q) j = ix2 j q :=
  funext fun a => Fin.ext (by match a with | ⟨0, _⟩ => rfl | ⟨1, _⟩ => rfl)
theorem idx27_ix2 (j : Fin 192) (q : Fin 64) : idx_main_v27 (ix2 j q) = ix2 q j :=
  funext fun a => Fin.ext (by match a with | ⟨0, _⟩ => rfl | ⟨1, _⟩ => rfl)
theorem lidx31_ix2 (n : Fin 100000) (p : Fin 64) (q : Fin 64) : lidx_main_v31 (ix2 n p) q = ix2 n q :=
  funext fun a => Fin.ext (by match a with | ⟨0, _⟩ => rfl | ⟨1, _⟩ => rfl)
theorem ridx31_ix2 (n : Fin 100000) (p : Fin 64) (q : Fin 64) : ridx_main_v31 (ix2 n p) q = ix2 q p :=
  funext fun a => Fin.ext (by match a with | ⟨0, _⟩ => rfl | ⟨1, _⟩ => rfl)
theorem idx30_ix2 (q p : Fin 64) : idx_main_v30 (ix2 q p) = ix2 p q :=
  funext fun a => Fin.ext (by match a with | ⟨0, _⟩ => rfl | ⟨1, _⟩ => rfl)

/-- The first piece: the node's scalar times the coefficient (a product over a contracted axis of extent one). -/
theorem piece_x (x0 : (⟨S100000x1, .f32⟩ : BufTy).Contents (Elt Ideal)) (x4 : (⟨S64x1, .f32⟩ : BufTy).Contents (Elt Ideal))
    (n : Fin 100000) (c : Fin 64) :
    val_main_v5 (F := Ideal) x0 x4 (ix2 n c) = x0 (ix2 n 0) * val_main_v4 x4 (ix2 0 c) := by
  rw [val_main_v5_apply, Fin.sum_univ_one, lidx5_ix2, ridx5_ix2]

/-- The second piece: the aggregated source features against row `c` of `W2`. -/
theorem piece_mu (x1 : (⟨S100000x64, .f32⟩ : BufTy).Contents (Elt Ideal)) (x3 : (⟨S2x3200000, .i32⟩ : BufTy).Contents (Elt Ideal))
    (x5 : (⟨S64x64, .f32⟩ : BufTy).Contents (Elt Ideal)) (n : Fin 100000) (c : Fin 64) :
    val_main_v17 (F := Ideal) x1 x3 x5 (ix2 n c) = ∑ k : Fin 64, val_main_v15 x1 x3 (ix2 n k) * x5 (ix2 c k) := by
  rw [val_main_v17_apply]
  refine Finset.sum_congr rfl fun k _ => ?_
  rw [lidx17_ix2, ridx17_ix2, val_main_v16_apply, idx16_ix2]

/-- The third piece: the aggregated edge features against row `c` of `W3`. -/
theorem piece_w (x2 : (⟨S3200000x1, .f32⟩ : BufTy).Contents (Elt Ideal)) (x3 : (⟨S2x3200000, .i32⟩ : BufTy).Contents (Elt Ideal))
    (x6 : (⟨S64x64, .f32⟩ : BufTy).Contents (Elt Ideal)) (x7 : (⟨S64x1, .f32⟩ : BufTy).Contents (Elt Ideal)) (n : Fin 100000) (c : Fin 64) :
    val_main_v25 (F := Ideal) x2 x3 x6 x7 (ix2 n c) = ∑ k : Fin 64, val_main_v23 x2 x3 x7 (ix2 n k) * x6 (ix2 c k) := by
  rw [val_main_v25_apply]
  refine Finset.sum_congr rfl fun k _ => ?_
  rw [lidx25_ix2, ridx25_ix2, val_main_v24_apply, idx24_ix2]

/-- The concatenated row at column `j`: the piece whose span of 64 columns holds `j`, at `j` less the columns before it. -/
theorem cat_read (x0 : (⟨S100000x1, .f32⟩ : BufTy).Contents (Elt Ideal)) (x1 : (⟨S100000x64, .f32⟩ : BufTy).Contents (Elt Ideal))
    (x2 : (⟨S3200000x1, .f32⟩ : BufTy).Contents (Elt Ideal)) (x3 : (⟨S2x3200000, .i32⟩ : BufTy).Contents (Elt Ideal))
    (x4 : (⟨S64x1, .f32⟩ : BufTy).Contents (Elt Ideal)) (x5 x6 : (⟨S64x64, .f32⟩ : BufTy).Contents (Elt Ideal))
    (x7 : (⟨S64x1, .f32⟩ : BufTy).Contents (Elt Ideal)) (n : Fin 100000) (j : Fin 192) :
    val_main_v26 (F := Ideal) x0 x1 x2 x3 x4 x5 x6 x7 (ix2 n j)
      = Cert.Spec.catRow (x0 (ix2 n 0)) (fun k => val_main_v15 x1 x3 (ix2 n k)) (fun k => val_main_v23 x2 x3 x7 (ix2 n k))
          (val_main_v4 x4) x5 x6 j := by
  unfold Cert.Spec.catRow val_main_v26
  by_cases h : j.val < 64
  · rw [dif_pos h]
    refine (concatenate_apply_piece (1 : Fin S100000x192.rank) _ _ (ix2 n j) 0 (by simp) S100000x64 (val_main_v5 (F := Ideal) x0 x4) rfl rfl
      0 rfl (ix2 n ⟨j.val, h⟩) (fun b hb => ?_) ?_).trans (piece_x x0 x4 n ⟨j.val, h⟩)
    · match b with
      | ⟨0, _⟩ => rfl
      | ⟨1, _⟩ => exact absurd rfl hb
    · show 0 + j.val = j.val
      omega
  · rw [dif_neg h]
    by_cases h2 : j.val < 128
    · rw [dif_pos h2]
      refine (concatenate_apply_piece (1 : Fin S100000x192.rank) _ _ (ix2 n j) 1 (by simp) S100000x64 (val_main_v17 (F := Ideal) x1 x3 x5) rfl rfl
        64 rfl (ix2 n ⟨j.val - 64, by omega⟩) (fun b hb => ?_) ?_).trans (piece_mu x1 x3 x5 n ⟨j.val - 64, by omega⟩)
      · match b with
        | ⟨0, _⟩ => rfl
        | ⟨1, _⟩ => exact absurd rfl hb
      · show 64 + (j.val - 64) = j.val
        omega
    · rw [dif_neg h2]
      have h3 : j.val < 192 := j.isLt
      refine (concatenate_apply_piece (1 : Fin S100000x192.rank) _ _ (ix2 n j) 2 (by simp) S100000x64 (val_main_v25 (F := Ideal) x2 x3 x6 x7) rfl rfl
        128 rfl (ix2 n ⟨j.val - 128, by omega⟩) (fun b hb => ?_) ?_).trans (piece_w x2 x3 x6 x7 n ⟨j.val - 128, by omega⟩)
      · match b with
        | ⟨0, _⟩ => rfl
        | ⟨1, _⟩ => exact absurd rfl hb
      · show 128 + (j.val - 128) = j.val
        omega

/-- The hidden row of node `n` at `q`: the concatenated row against row `q` of `Wc0`, clipped below at zero. -/
theorem hid_read (x0 : (⟨S100000x1, .f32⟩ : BufTy).Contents (Elt Ideal)) (x1 : (⟨S100000x64, .f32⟩ : BufTy).Contents (Elt Ideal))
    (x2 : (⟨S3200000x1, .f32⟩ : BufTy).Contents (Elt Ideal)) (x3 : (⟨S2x3200000, .i32⟩ : BufTy).Contents (Elt Ideal))
    (x4 : (⟨S64x1, .f32⟩ : BufTy).Contents (Elt Ideal)) (x5 x6 : (⟨S64x64, .f32⟩ : BufTy).Contents (Elt Ideal))
    (x7 : (⟨S64x1, .f32⟩ : BufTy).Contents (Elt Ideal)) (x8 : (⟨S64x192, .f32⟩ : BufTy).Contents (Elt Ideal))
    (n : Fin 100000) (q : Fin 64) :
    val_main_v29 (F := Ideal) x0 x1 x2 x3 x4 x5 x6 x7 x8 (ix2 n q)
      = Cert.Spec.hidRow (x0 (ix2 n 0)) (fun k => val_main_v15 x1 x3 (ix2 n k)) (fun k => val_main_v23 x2 x3 x7 (ix2 n k))
          (val_main_v4 x4) x5 x6 x8 q := by
  rw [val_main_v29_apply, val_main_v28_apply, val_main_call1_v0_apply, val_main_call1_cst_apply]
  unfold Cert.Spec.hidRow
  refine congr (congrArg max (Finset.sum_congr rfl fun j _ => ?_)) Ideal.ofBits_zero_f32
  rw [lidx28_ix2, ridx28_ix2, val_main_v27_apply, idx27_ix2, cat_read]

/-- The whole-array program's result is the specification's node-result array of the node scalars, its two aggregated
    arrays, the transposed `W1` column, and the weights W2, W3, Wc0, Wc1. -/
theorem ref_node (x0 : (⟨S100000x1, .f32⟩ : BufTy).Contents (Elt Ideal)) (x1 : (⟨S100000x64, .f32⟩ : BufTy).Contents (Elt Ideal))
    (x2 : (⟨S3200000x1, .f32⟩ : BufTy).Contents (Elt Ideal)) (x3 : (⟨S2x3200000, .i32⟩ : BufTy).Contents (Elt Ideal))
    (x4 : (⟨S64x1, .f32⟩ : BufTy).Contents (Elt Ideal)) (x5 : (⟨S64x64, .f32⟩ : BufTy).Contents (Elt Ideal))
    (x6 : (⟨S64x64, .f32⟩ : BufTy).Contents (Elt Ideal)) (x7 : (⟨S64x1, .f32⟩ : BufTy).Contents (Elt Ideal))
    (x8 : (⟨S64x192, .f32⟩ : BufTy).Contents (Elt Ideal)) (x9 : (⟨S64x64, .f32⟩ : BufTy).Contents (Elt Ideal)) :
    val_main_v32 (F := Ideal) x0 x1 x2 x3 x4 x5 x6 x7 x8 x9
      = Cert.Spec.node x0 (val_main_v15 x1 x3) (val_main_v23 x2 x3 x7) (val_main_v4 x4) x5 x6 x8 x9 := by
  funext i
  obtain ⟨n, p, rfl⟩ : ∃ (n : Fin 100000) (p : Fin 64), i = ix2 n p := ⟨i 0, i 1, eq_ix2 i⟩
  rw [val_main_v32_apply, val_main_v31_apply, val_main_call2_v0_apply, val_main_call2_cst_apply]
  show _ = Cert.Spec.nodeRow (x0 (ix2 n 0)) (fun k => val_main_v15 x1 x3 (ix2 n k)) (fun k => val_main_v23 x2 x3 x7 (ix2 n k))
    (val_main_v4 x4) x5 x6 x8 x9 p
  unfold Cert.Spec.nodeRow
  refine congr (congrArg max (Finset.sum_congr rfl fun q _ => ?_)) Ideal.ofBits_zero_f32
  rw [lidx31_ix2, ridx31_ix2, val_main_v30_apply, idx30_ix2, hid_read]

end Cert.ReferenceIdeal.RefValue

end
-- ==== Proof.Bridge.lean ====
/-
  The whole-array program's result in the blockwise program's words. Both programs aggregate over the edges with the SAME
  host operations (the source rows gathered and summed into the destination nodes; the per-edge features summed into the
  destination nodes), so the whole-array program's two aggregated arrays are the blockwise program's `aggMu` and `aggW`
  once its per-edge features are known to be the specification's; and its transposed columns are the same transposes. Its
  result is therefore the specification's node-result array of exactly the arrays the blockwise program's result is.
-/
import proofs.«132933_j13597866459920_1_alg».proof.Proof.HostRead
import proofs.«132933_j13597866459920_1_alg».proof.Proof.RefNode

noncomputable section

namespace Cert.Proof.Bridge

open Idealize.ShloMosaic Idealize.ShloMosaic.TcCoe Idealize.SL.Sem
open Cert.ReferenceIdeal.Read Cert.ReferenceIdeal.RefValue Cert.KernelIdeal.KValue

/-- The whole-array program's aggregated source features are the blockwise program's. -/
theorem aggMu_eq (x1 : (⟨Cert.ReferenceIdeal.S100000x64, .f32⟩ : BufTy).Contents (Elt Ideal))
    (x3 : (⟨Cert.ReferenceIdeal.S2x3200000, .i32⟩ : BufTy).Contents (Elt Ideal)) :
    val_main_v15 (F := Ideal) x1 x3 = aggMu x1 x3 := rfl

/-- The whole-array program's aggregated edge features are the blockwise program's aggregation of ITS per-edge features. -/
theorem aggW_eq (x2 : (⟨Cert.ReferenceIdeal.S3200000x1, .f32⟩ : BufTy).Contents (Elt Ideal))
    (x3 : (⟨Cert.ReferenceIdeal.S2x3200000, .i32⟩ : BufTy).Contents (Elt Ideal))
    (x7 : (⟨Cert.ReferenceIdeal.S64x1, .f32⟩ : BufTy).Contents (Elt Ideal)) :
    val_main_v23 (F := Ideal) x2 x3 x7 = aggW x3 (val_main_v20 (F := Ideal) x2 x7) := rfl

/-- The whole-array program's result, in the blockwise program's words. -/
theorem ref_result (x0 : (⟨Cert.ReferenceIdeal.S100000x1, .f32⟩ : BufTy).Contents (Elt Ideal))
    (x1 : (⟨Cert.ReferenceIdeal.S100000x64, .f32⟩ : BufTy).Contents (Elt Ideal))
    (x2 : (⟨Cert.ReferenceIdeal.S3200000x1, .f32⟩ : BufTy).Contents (Elt Ideal))
    (x3 : (⟨Cert.ReferenceIdeal.S2x3200000, .i32⟩ : BufTy).Contents (Elt Ideal))
    (x4 : (⟨Cert.ReferenceIdeal.S64x1, .f32⟩ : BufTy).Contents (Elt Ideal))
    (x5 x6 : (⟨Cert.ReferenceIdeal.S64x64, .f32⟩ : BufTy).Contents (Elt Ideal))
    (x7 : (⟨Cert.ReferenceIdeal.S64x1, .f32⟩ : BufTy).Contents (Elt Ideal))
    (x8 : (⟨Cert.ReferenceIdeal.S64x192, .f32⟩ : BufTy).Contents (Elt Ideal))
    (x9 : (⟨Cert.ReferenceIdeal.S64x64, .f32⟩ : BufTy).Contents (Elt Ideal)) :
    val_main_v32 (F := Ideal) x0 x1 x2 x3 x4 x5 x6 x7 x8 x9
      = Cert.Spec.node x0 (aggMu x1 x3)
          (aggW x3 (Cert.Spec.edge x2 (transpose Cert.KernelIdeal.S1x64 [1, 0] x7 Cert.KernelIdeal.Facts₀.transposes_S64x1_S1x64_1_0)))
          (transpose Cert.KernelIdeal.S1x64 [1, 0] x4 Cert.KernelIdeal.Facts₀.transposes_S64x1_S1x64_1_0) x5 x6 x8 x9 := by
  rw [ref_node, aggMu_eq, aggW_eq, ref_edge]
  rfl

end Cert.Proof.Bridge

end
-- ==== Proof.lean ====
/-
  The certificate of the graph-network layer: a blockwise program (per-edge features and a per-node MLP in two kernels, the
  sums over edges on the host) against the whole-array program, equal over the extended reals.

  The three frames are the generated ones (the whole-array program's is its generated run with the result dropped). The
  idealization rewrote nothing, so `preserves` asks nothing. For the value claim both programs' results are shown to be ONE
  array, `kernelResult`: the specification's node-result array (`Spec.node`) of the node scalars, the two aggregations over
  the edges arriving at each node — of the gathered source feature rows, and of the per-edge features `Spec.edge` —, the
  transposed column `W1` and the four weight matrices. The blockwise program gets there region by region: each region's
  written-back blocks are the blocks of one whole-array function and cover the array. The whole-array program gets there by
  reading its last stage at an index. Sums over a contracted axis are the same sums on both sides, a matrix product into a
  zero accumulator is the plain sum, and narrowing to a 16-bit float is the identity on extended reals; no law that needs
  finiteness is used, so the precondition is never opened.
-/
import proofs.«132933_j13597866459920_1_alg».proof.Defs
import proofs.«132933_j13597866459920_1_alg».proof.Proof.Gen.Kernel
import proofs.«132933_j13597866459920_1_alg».proof.Proof.Gen.Kernel.Skeleton
import proofs.«132933_j13597866459920_1_alg».proof.Proof.Gen.Kernel.Launch
import proofs.«132933_j13597866459920_1_alg».proof.Proof.Gen.Kernel.Points
import proofs.«132933_j13597866459920_1_alg».proof.Proof.Gen.Kernel.Frame
import proofs.«132933_j13597866459920_1_alg».proof.Proof.Gen.KernelIdeal
import proofs.«132933_j13597866459920_1_alg».proof.Proof.Gen.KernelIdeal.Skeleton
import proofs.«132933_j13597866459920_1_alg».proof.Proof.Gen.KernelIdeal.Launch
import proofs.«132933_j13597866459920_1_alg».proof.Proof.Gen.KernelIdeal.Points
import proofs.«132933_j13597866459920_1_alg».proof.Proof.Gen.KernelIdeal.Frame
import proofs.«132933_j13597866459920_1_alg».proof.Proof.Gen.ReferenceIdeal
import proofs.«132933_j13597866459920_1_alg».proof.Proof.Gen.ReferenceIdeal.Run
import proofs.«132933_j13597866459920_1_alg».proof.Proof.Gen.ReferenceIdeal.Read
import proofs.«132933_j13597866459920_1_alg».proof.Proof.Gen.Pre_finite_inputs
import proofs.«132933_j13597866459920_1_alg».proof.Proof.KRun
import proofs.«132933_j13597866459920_1_alg».proof.Proof.HostRead
import proofs.«132933_j13597866459920_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `kernelResult` of the argument arrays: the blockwise one by its run read region by region, the
    whole-array one by its run's term read at an index, the arguments of the two agreeing. -/
theorem algebraic : Cert.algebraic_KernelIdeal_ReferenceIdeal := by
  intro m ρ m' ρ' _ hagree
  refine ⟨fun c => Cert.KernelIdeal.KValue.kernelResult m c, ?_, ?_⟩
  · exact (θ_run Cert.KernelIdeal.defs _ _).mono
      (fun r h c => ⟨(h c).1.trans (Cert.KernelIdeal.KValue.W4_v20 m ρ c), (h c).2⟩)
      (Cert.KernelIdeal.Gen.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v32_eq, Cert.Proof.Bridge.ref_result, h0, h1, h2, h3, h4, h5, h6, h7, h8, h9]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
